-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S2048x1024 : Shape := ⟨2, ![2048, 1024]⟩
abbrev S1024 : Shape := ⟨1, ![1024]⟩
abbrev S1024x1024 : Shape := ⟨2, ![1024, 1024]⟩
abbrev S1x1024 : Shape := ⟨2, ![1, 1024]⟩
abbrev S256x1024 : Shape := ⟨2, ![256, 1024]⟩

abbrev nBuf : Space → Nat
  | .hbm => 33
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .hbm, ⟨25, _⟩ => ⟨S1024x1024, .f32⟩
  | .hbm, ⟨26, _⟩ => ⟨S1024x1024, .bf16⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S8192x1024, .f32⟩
  | .hbm, ⟨32, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S2048x1024_S1024x1024_0_0 : S2048x1024.Slices ![0, 0] S1024x1024
  bitsLt_bf16_f32 : FTy.bits .bf16 < FTy.bits .f32
  slices_S2048x1024_S1024x1024_1024_0 : S2048x1024.Slices ![1024, 0] S1024x1024
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .bf16 = 32 ∨ (Rect.block (s := S1024x1024) S1024x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x1024.size a ≤ S1024x1024.size a
  hwx0_13 : ∀ i : grid0.Coords, EltTy.bits .bf16 = 32 ∨ (Rect.block (s := S1024x1024) S1024x1024.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x1024.size a ≤ S8192x1024.size a
  hwx0_15 : ∀ i : grid0.Coords, EltTy.bits .f32 = 32 ∨ (Rect.block (s := S8192x1024) S256x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x1024.size a ≤ S8192x1024.size a
  hwx0_16 : ∀ i : grid0.Coords, EltTy.bits .f32 = 32 ∨ (Rect.block (s := S8192x1024) S256x1024.size (cc0_transform_16 i) (hinb0_16 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1024x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S1024x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v19) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v20_0) S256x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v20_1) S256x1024.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S1x1024 : Shape := ⟨2, ![1, 1024]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S8192x2048, .f32⟩
  | .hbm, ⟨12, _⟩ => ⟨S8192x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x2048_S2048x1024_S8192x1024_1_0_0_1_n_n_wf : DotDims.WF S8192x2048 S2048x1024 S8192x1024 [1] [0] [0] [1] [] []

variable [Facts₀]

def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.CellSpec.lean ====
/-
  One step of an LSTM cell, index by index, on the extended reals.

  The step takes a batch of inputs `z` and of hidden states `h`, the previous cell state `c`, and for each of the four
  gates (input i, forget f, output o, candidate g) a weight matrix split into the rows that meet `z` and the rows that meet
  `h`, with a bias row. A gate's pre-activation at row `p`, column `q` is

      a(p, q) = (∑ₖ z(p, k) · wz(k, q)) + (∑ₖ h(p, k) · wh(k, q)) + b(q),

  and the step is

      c'(p, q) = σ(a_f) · c(p, q) + σ(a_i) · tanh(a_g),        h'(p, q) = σ(a_o) · tanh(c'(p, q)),

  with σ(x) = 1 / (1 + e^(-x)). Everything here is stated for ANY number of rows `R`: a block of rows of the batch
  and the whole batch are the same function, and row `p` of the result reads row `p` of `z`, `h` and `c` only
  (`preact_rows`, `cellC_rows`, `cellH_rows`).

  Two laws join the two spellings the certificate meets. A contraction over 2048 terms is the sum of its first and its
  last 1024 terms (`sum_halves`): addition on the extended reals is commutative and associative, so no finiteness is
  needed. And 1 / (1 + e^(-x)) written with the float pattern of 1.0 is σ(x) (`logistic_spelled`).
-/
import Idealize.ShloMosaic.PureOps.Ideal
import Idealize.ShloMosaic.PureOps.Ideal.Laws
import Idealize.ShloMosaic.Lib.ValueIdx
import Idealize.ShloMosaic.Lib.IdealHost

noncomputable section

open Idealize.ShloMosaic Idealize.ShloMosaic.ValueIdx

namespace Cert.Lstm

/-- An `R × C` matrix of extended reals. -/
abbrev Mat (R C : ℕ) : Type := (⟨2, ![R, C]⟩ : Shape).Idx → EReal

/-- A gate's pre-activation at row `p`, column `q`: the two half-contractions and the bias. -/
def preact {R : ℕ} (z h : Mat R 1024) (wz wh : Mat 1024 1024) (b : Mat 1 1024) (p : Fin R) (q : Fin 1024) : EReal :=
  (∑ k : Fin 1024, z (ix2 p k) * wz (ix2 k q)) + (∑ k : Fin 1024, h (ix2 p k) * wh (ix2 k q)) + b (ix2 (0 : Fin 1) q)

/-- The new cell state: the forget gate times the old state plus the input gate times the candidate. -/
def cellC {R : ℕ} (z h c : Mat R 1024) (wiz wih : Mat 1024 1024) (bi : Mat 1 1024) (wfz wfh : Mat 1024 1024) (bf : Mat 1 1024)
    (wgz wgh : Mat 1024 1024) (bg : Mat 1 1024) (p : Fin R) (q : Fin 1024) : EReal :=
  Ideal.logistic (preact z h wfz wfh bf p q) * c (ix2 p q)
    + Ideal.logistic (preact z h wiz wih bi p q) * Ideal.tanh (preact z h wgz wgh bg p q)

/-- The new hidden state: the output gate times tanh of the new cell state. -/
def cellH {R : ℕ} (z h c : Mat R 1024) (wiz wih : Mat 1024 1024) (bi : Mat 1 1024) (wfz wfh : Mat 1024 1024) (bf : Mat 1 1024)
    (woz woh : Mat 1024 1024) (bo : Mat 1 1024) (wgz wgh : Mat 1024 1024) (bg : Mat 1 1024) (p : Fin R) (q : Fin 1024) : EReal :=
  Ideal.logistic (preact z h woz woh bo p q) * Ideal.tanh (cellC z h c wiz wih bi wfz wfh bf wgz wgh bg p q)

/-- Row `p` of a pre-activation reads row `p` of `z` and of `h` only. -/
theorem preact_rows {R R' : ℕ} (z h : Mat R 1024) (z' h' : Mat R' 1024) (wz wh : Mat 1024 1024) (b : Mat 1 1024)
    (p : Fin R) (p' : Fin R') (q : Fin 1024)
    (hz : ∀ k : Fin 1024, z (ix2 p k) = z' (ix2 p' k)) (hh : ∀ k : Fin 1024, h (ix2 p k) = h' (ix2 p' k)) :
    preact z h wz wh b p q = preact z' h' wz wh b p' q := by
  unfold preact
  have ez : ∑ k : Fin 1024, z (ix2 p k) * wz (ix2 k q) = ∑ k : Fin 1024, z' (ix2 p' k) * wz (ix2 k q) :=
    Finset.sum_congr rfl fun k _ => by rw [hz k]
  have eh : ∑ k : Fin 1024, h (ix2 p k) * wh (ix2 k q) = ∑ k : Fin 1024, h' (ix2 p' k) * wh (ix2 k q) :=
    Finset.sum_congr rfl fun k _ => by rw [hh k]
  rw [ez, eh]

/-- Row `p` of the new cell state reads row `p` of `z`, `h` and `c` only. -/
theorem cellC_rows {R R' : ℕ} (z h c : Mat R 1024) (z' h' c' : Mat R' 1024) (wiz wih : Mat 1024 1024) (bi : Mat 1 1024)
    (wfz wfh : Mat 1024 1024) (bf : Mat 1 1024) (wgz wgh : Mat 1024 1024) (bg : Mat 1 1024)
    (p : Fin R) (p' : Fin R') (q : Fin 1024)
    (hz : ∀ k : Fin 1024, z (ix2 p k) = z' (ix2 p' k)) (hh : ∀ k : Fin 1024, h (ix2 p k) = h' (ix2 p' k))
    (hc : c (ix2 p q) = c' (ix2 p' q)) :
    cellC z h c wiz wih bi wfz wfh bf wgz wgh bg p q = cellC z' h' c' wiz wih bi wfz wfh bf wgz wgh bg p' q := by
  unfold cellC
  rw [preact_rows z h z' h' wfz wfh bf p p' q hz hh, preact_rows z h z' h' wiz wih bi p p' q hz hh,
    preact_rows z h z' h' wgz wgh bg p p' q hz hh, hc]

/-- Row `p` of the new hidden state reads row `p` of `z`, `h` and `c` only. -/
theorem cellH_rows {R R' : ℕ} (z h c : Mat R 1024) (z' h' c' : Mat R' 1024) (wiz wih : Mat 1024 1024) (bi : Mat 1 1024)
    (wfz wfh : Mat 1024 1024) (bf : Mat 1 1024) (woz woh : Mat 1024 1024) (bo : Mat 1 1024)
    (wgz wgh : Mat 1024 1024) (bg : Mat 1 1024) (p : Fin R) (p' : Fin R') (q : Fin 1024)
    (hz : ∀ k : Fin 1024, z (ix2 p k) = z' (ix2 p' k)) (hh : ∀ k : Fin 1024, h (ix2 p k) = h' (ix2 p' k))
    (hc : c (ix2 p q) = c' (ix2 p' q)) :
    cellH z h c wiz wih bi wfz wfh bf woz woh bo wgz wgh bg p q
      = cellH z' h' c' wiz wih bi wfz wfh bf woz woh bo wgz wgh bg p' q := by
  unfold cellH
  rw [preact_rows z h z' h' woz woh bo p p' q hz hh,
    cellC_rows z h c z' h' c' wiz wih bi wfz wfh bf wgz wgh bg p p' q hz hh hc]

/-! ## The step on the whole batch, from the arguments as they are given

Each gate's weight matrix comes as ONE 2048 × 1024 matrix: its first 1024 rows meet `z`, its last 1024 rows meet `h`;
each bias comes as a vector of 1024 entries. -/

/-- The first 1024 rows of a 2048-row matrix. -/
def topHalf (W : Mat 2048 1024) : Mat 1024 1024 :=
  fun i => W (ix2 ⟨(i 0).val, by have := idx2_lt0 i; omega⟩ (i 1))

/-- The last 1024 rows of a 2048-row matrix. -/
def botHalf (W : Mat 2048 1024) : Mat 1024 1024 :=
  fun i => W (ix2 ⟨1024 + (i 0).val, by have := idx2_lt0 i; omega⟩ (i 1))

/-- A vector of 1024 entries as a matrix of one row. -/
def asRow (b : (⟨1, ![1024]⟩ : Shape).Idx → EReal) : Mat 1 1024 := fun i => b (ix1 (i 1))

/-- The new cell state of the whole batch. -/
def stepC (Z H C : Mat 8192 1024) (Wi : Mat 2048 1024) (bi : (⟨1, ![1024]⟩ : Shape).Idx → EReal)
    (Wf : Mat 2048 1024) (bf : (⟨1, ![1024]⟩ : Shape).Idx → EReal)
    (Wg : Mat 2048 1024) (bg : (⟨1, ![1024]⟩ : Shape).Idx → EReal) : Mat 8192 1024 :=
  fun i => cellC Z H C (topHalf Wi) (botHalf Wi) (asRow bi) (topHalf Wf) (botHalf Wf) (asRow bf)
    (topHalf Wg) (botHalf Wg) (asRow bg) (i 0) (i 1)

/-- The new hidden state of the whole batch. -/
def stepH (Z H C : Mat 8192 1024) (Wi : Mat 2048 1024) (bi : (⟨1, ![1024]⟩ : Shape).Idx → EReal)
    (Wf : Mat 2048 1024) (bf : (⟨1, ![1024]⟩ : Shape).Idx → EReal)
    (Wo : Mat 2048 1024) (bo : (⟨1, ![1024]⟩ : Shape).Idx → EReal)
    (Wg : Mat 2048 1024) (bg : (⟨1, ![1024]⟩ : Shape).Idx → EReal) : Mat 8192 1024 :=
  fun i => cellH Z H C (topHalf Wi) (botHalf Wi) (asRow bi) (topHalf Wf) (botHalf Wf) (asRow bf)
    (topHalf Wo) (botHalf Wo) (asRow bo) (topHalf Wg) (botHalf Wg) (asRow bg) (i 0) (i 1)

/-- A sum of 2048 terms is the sum of its first 1024 plus the sum of its last 1024. -/
theorem sum_halves (f : Fin 2048 → EReal) :
    ∑ k : Fin 2048, f k
      = (∑ k : Fin 1024, f ⟨k.val, by omega⟩) + ∑ k : Fin 1024, f ⟨1024 + k.val, by omega⟩ :=
  Fin.sum_univ_add (a := 1024) (b := 1024) f

/-- `1 / (1 + e^(-x))`, the ones written as the float pattern of 1.0, is the logistic function. -/
theorem logistic_spelled (x : EReal) :
    Ideal.div (Ideal.ofBits .f32 0x3F800000#32) (Ideal.ofBits .f32 0x3F800000#32 + Ideal.exp (-x)) = Ideal.logistic x := by
  rw [Ideal.ofBits_one_f32]
  rfl

end Cert.Lstm

end
-- ==== Proof.GatePayload.lean ====
/-
  The kernel body's two stored values, read at one entry of the 256 × 1024 block.

  A block product `x · w` into a zero accumulator is, at row `p` and column `q`, the sum over `k` of
  `x(p, k) · w(k, q)` (`mm_at`). The narrowing of the activations to bf16 is the identity on the extended reals, a
  shape cast of a shape to itself is the identity, and the bias row is broadcast down the rows. So a gate's
  pre-activation in the body — the product with the `z` half of the weights, plus the product with the `h` half, plus
  the bias — is `Lstm.preact` of the loaded blocks (`gate_at`), the value stored to the cell-state output is
  `Lstm.cellC` and the value stored to the hidden-state output is `Lstm.cellH` (`cellstate_at`, `hidden_at`).
-/
import proofs.«152854_j9517647528292_1_alg».proof.Proof.Gen.KernelIdeal.Skeleton
import proofs.«152854_j9517647528292_1_alg».proof.Proof.CellSpec
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Lstm

/-! ## The block product at an entry -/

theorem lhs_mm_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_mm_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_mm_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_mm_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Entry `(p, q)` of a 256 × 1024 by 1024 × 1024 product into the zero accumulator: the sum over the
    contracted coordinate. -/
theorem mm_at (x : FVec Ideal S256x1024 .bf16) (w : FVec Ideal S1024x1024 .bf16) (p : Fin 256) (q : Fin 1024) :
    matmul dot_S256x1024_S1024x1024_S256x1024_1_0_0_1_n_n none x w (constant S256x1024 .f32 0x00000000#32) (ix2 p q)
      = ∑ k : Fin 1024, x (ix2 p k) * w (ix2 k q) := by
  show FloatOps.matmul dot_S256x1024_S1024x1024_S256x1024_1_0_0_1_n_n none x w (constant S256x1024 .f32 0x00000000#32) (ix2 p q) = _
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p q) ((ValueIdx.contrEquiv1 dot_S256x1024_S1024x1024_S256x1024_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S256x1024_S1024x1024_S256x1024_1_0_0_1_n_n.rhsIdx (ix2 p q) ((ValueIdx.contrEquiv1 dot_S256x1024_S1024x1024_S256x1024_1_0_0_1_n_n 1024 rfl rfl).symm k) = ix2 k q := funext fun a => Fin.ext (by
    match a with
    | ⟨0, _⟩ => exact (rhs_mm_0 _ _).trans hk
    | ⟨1, _⟩ => exact rhs_mm_1 _ _)
  rw [el, er]

/-! ## One gate -/

/-- A gate's pre-activation as the body computes it, at `(p, q)`, is `Lstm.preact` of the loaded blocks. -/
theorem gate_at (xz xh : Vec Ideal S256x1024 .f32) (wz wh : Vec Ideal S1024x1024 .bf16) (b : Vec Ideal S1x1024 .f32)
    (p : Fin 256) (q : Fin 1024) :
    addf (F := Ideal) (addf (matmul (F := Ideal) (φ₁ := .bf16) (φ₂ := .bf16) dot_S256x1024_S1024x1024_S256x1024_1_0_0_1_n_n none (truncf .bf16 xz bitsLt_bf16_f32) (shapeCast S1024x1024 wz shapeCasts_S1024x1024_S1024x1024) (constant S256x1024 .f32 0x00000000#32))
               (matmul (F := Ideal) (φ₁ := .bf16) (φ₂ := .bf16) dot_S256x1024_S1024x1024_S256x1024_1_0_0_1_n_n none (truncf .bf16 xh bitsLt_bf16_f32) (shapeCast S1024x1024 wh shapeCasts_S1024x1024_S1024x1024) (constant S256x1024 .f32 0x00000000#32)))
         (broadcastTo S256x1024 (shapeCast S1x1024 b shapeCasts_S1x1024_S1x1024) broadcasts_S1x1024_S256x1024) (ix2 p q)
      = preact xz xh wz wh b p q := by
  rw [shapeCast_self wz, shapeCast_self wh, shapeCast_self b]
  show (matmul (F := Ideal) (φ₁ := .bf16) (φ₂ := .bf16) dot_S256x1024_S1024x1024_S256x1024_1_0_0_1_n_n none (truncf .bf16 xz bitsLt_bf16_f32) wz (constant S256x1024 .f32 0x00000000#32) (ix2 p q)
        + matmul (F := Ideal) (φ₁ := .bf16) (φ₂ := .bf16) dot_S256x1024_S1024x1024_S256x1024_1_0_0_1_n_n none (truncf .bf16 xh bitsLt_bf16_f32) wh (constant S256x1024 .f32 0x00000000#32) (ix2 p q))
        + broadcastTo S256x1024 b broadcasts_S1x1024_S256x1024 (ix2 p q) = (_ : EReal)
  rw [mm_at, mm_at, broadcastTo_1b_ab_apply]
  rfl

/-! ## The two stored values -/

/-- The value stored to the cell-state output, at `(p, q)`. -/
theorem cellstate_at (x0 x1 x2 : Vec Ideal S256x1024 .f32) (x3 x4 : Vec Ideal S1024x1024 .bf16) (x5 : Vec Ideal S1x1024 .f32)
    (x6 x7 : Vec Ideal S1024x1024 .bf16) (x8 : Vec Ideal S1x1024 .f32)
    (x12 x13 : Vec Ideal S1024x1024 .bf16) (x14 : Vec Ideal S1x1024 .f32) (p : Fin 256) (q : Fin 1024) :
    k0_pay1 (F := Ideal) (k0_pay3 x0) (k0_pay4 x1) x2 (k0_pay5 x0 x1 x3 x4 x5) (k0_pay6 x0 x1 x6 x7 x8) x12 x13 x14 (ix2 p q)
      = cellC x0 x1 x2 x3 x4 x5 x6 x7 x8 x12 x13 x14 p q := by
  unfold k0_pay1 k0_pay5 k0_pay6 k0_pay3 k0_pay4 cellC
  dsimp only
  show Ideal.logistic (_ : EReal) * x2 (ix2 p q) + Ideal.logistic (_ : EReal) * Ideal.tanh (_ : EReal) = _
  rw [gate_at x0 x1 x6 x7 x8 p q, gate_at x0 x1 x3 x4 x5 p q, gate_at x0 x1 x12 x13 x14 p q]

/-- The value stored to the hidden-state output, at `(p, q)`. -/
theorem hidden_at (x0 x1 x2 : Vec Ideal S256x1024 .f32) (x3 x4 : Vec Ideal S1024x1024 .bf16) (x5 : Vec Ideal S1x1024 .f32)
    (x6 x7 : Vec Ideal S1024x1024 .bf16) (x8 : Vec Ideal S1x1024 .f32) (x9 x10 : Vec Ideal S1024x1024 .bf16) (x11 : Vec Ideal S1x1024 .f32)
    (x12 x13 : Vec Ideal S1024x1024 .bf16) (x14 : Vec Ideal S1x1024 .f32) (p : Fin 256) (q : Fin 1024) :
    k0_pay2 (F := Ideal) (k0_pay3 x0) (k0_pay4 x1) x2 (k0_pay5 x0 x1 x3 x4 x5) (k0_pay6 x0 x1 x6 x7 x8) (k0_pay7 x0 x9) x10 x11 x12 x13 x14 (ix2 p q)
      = cellH x0 x1 x2 x3 x4 x5 x6 x7 x8 x9 x10 x11 x12 x13 x14 p q := by
  unfold k0_pay2 k0_pay7 cellH
  dsimp only
  show Ideal.logistic (_ : EReal) * Ideal.tanh (k0_pay1 (F := Ideal) (k0_pay3 x0) (k0_pay4 x1) x2 (k0_pay5 x0 x1 x3 x4 x5) (k0_pay6 x0 x1 x6 x7 x8) x12 x13 x14 (ix2 p q)) = _
  rw [cellstate_at x0 x1 x2 x3 x4 x5 x6 x7 x8 x12 x13 x14 p q]
  unfold k0_pay3 k0_pay4
  dsimp only
  rw [gate_at x0 x1 x9 x10 x11 p q]

end Cert.KernelIdeal.Payload

end
-- ==== Proof.WindowEntry.lean ====
/-
  The arrays the kernel's windows find when the region is entered.

  Before the kernel is launched the program cuts each gate's 2048 × 1024 weight matrix into its first and its last 1024
  rows and narrows both to bf16, and reshapes each bias vector into a matrix of one row. On the extended reals the
  narrowing is the identity, so the first cut is `Lstm.topHalf` of the matrix, the second `Lstm.botHalf`, and the
  reshaped bias `Lstm.asRow` of the vector (`narrowed_top`, `narrowed_bot`, `reshaped_row`). Each of the twelve
  arrays the weight and bias windows stage is one of these three, of the argument it was made from.
-/
import proofs.«152854_j9517647528292_1_alg».proof.Proof.Gen.KernelIdeal.Frame
import proofs.«152854_j9517647528292_1_alg».proof.Proof.CellSpec
import Idealize.ShloMosaic.Lib.ValueLayout
import Idealize.ShloMosaic.Lib.Pipeline.Value
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo Cert.Lstm

/-! ## The three layout facts -/

/-- Rows 0 … 1023 of a matrix, narrowed: entry `(k, q)` is the matrix's entry `(k, q)`. -/
theorem narrowed_top (X : S2048x1024.Idx → EReal) :
    truncf (F := Ideal) .bf16 (extractStridedSlice S1024x1024 ![0, 0] X slices_S2048x1024_S1024x1024_0_0) bitsLt_bf16_f32
      = topHalf X := by
  funext i
  obtain ⟨k, q, rfl⟩ : ∃ (k q : Fin 1024), i = ix2 k q := ⟨i 0, i 1, eq_ix2 i⟩
  show extractStridedSlice S1024x1024 ![0, 0] X slices_S2048x1024_S1024x1024_0_0 (ix2 k q) = _
  exact slice2_axis0_apply 0 _ _ k q _ (by simp)

/-- Rows 1024 … 2047 of a matrix, narrowed: entry `(k, q)` is the matrix's entry `(1024 + k, q)`. -/
theorem narrowed_bot (X : S2048x1024.Idx → EReal) :
    truncf (F := Ideal) .bf16 (extractStridedSlice S1024x1024 ![1024, 0] X slices_S2048x1024_S1024x1024_1024_0) bitsLt_bf16_f32
      = botHalf X := by
  funext i
  obtain ⟨k, q, rfl⟩ : ∃ (k q : Fin 1024), i = ix2 k q := ⟨i 0, i 1, eq_ix2 i⟩
  show extractStridedSlice S1024x1024 ![1024, 0] X slices_S2048x1024_S1024x1024_1024_0 (ix2 k q) = _
  exact slice2_axis0_apply 1024 _ _ k q _ rfl

/-- A vector reshaped into one row: entry `(0, q)` is the vector's entry `q`. -/
theorem reshaped_row (b : S1024.Idx → EReal) : shapeCast S1x1024 b shapeCasts_S1024_S1x1024 = asRow b := by
  funext i
  obtain ⟨u, q, rfl⟩ : ∃ (u : Fin 1) (q : Fin 1024), i = ix2 u q := ⟨i 0, i 1, eq_ix2 i⟩
  exact shapeCast_a_1a_apply _ _ u q

variable (m : (ℓ : Loc nD τ sig) → Buf (Elt Ideal) ℓ)

/-! ## The input gate's weights and bias -/

theorem entry_v1 (c : Dev nD) :
    (V m c main_v1 : S1024x1024.Idx → EReal) = topHalf (m ((c : Thread nD τ).loc main_arg3)) := by
  have e : (V m c main_v1 : S1024x1024.Idx → EReal)
      = truncf (F := Ideal) .bf16 (extractStridedSlice S1024x1024 ![0, 0] (m ((c : Thread nD τ).loc main_arg3)) slices_S2048x1024_S1024x1024_0_0) bitsLt_bf16_f32 := by
    dsimp only [Gen.V, Gen.hostOps0]; after_results
  rw [e, narrowed_top]

theorem entry_v3 (c : Dev nD) :
    (V m c main_v3 : S1024x1024.Idx → EReal) = botHalf (m ((c : Thread nD τ).loc main_arg3)) := by
  have e : (V m c main_v3 : S1024x1024.Idx → EReal)
      = truncf (F := Ideal) .bf16 (extractStridedSlice S1024x1024 ![1024, 0] (m ((c : Thread nD τ).loc main_arg3)) slices_S2048x1024_S1024x1024_1024_0) bitsLt_bf16_f32 := by
    dsimp only [Gen.V, Gen.hostOps0]; after_results
  rw [e, narrowed_bot]

theorem entry_v16 (c : Dev nD) :
    (V m c main_v16 : S1x1024.Idx → EReal) = asRow (m ((c : Thread nD τ).loc main_arg4)) := by
  have e : (V m c main_v16 : S1x1024.Idx → EReal)
      = shapeCast S1x1024 (m ((c : Thread nD τ).loc main_arg4)) shapeCasts_S1024_S1x1024 := by
    dsimp only [Gen.V, Gen.hostOps0]; after_results; rfl
  rw [e, reshaped_row]

/-! ## The forget gate's -/

theorem entry_v5 (c : Dev nD) :
    (V m c main_v5 : S1024x1024.Idx → EReal) = topHalf (m ((c : Thread nD τ).loc main_arg5)) := by
  have e : (V m c main_v5 : S1024x1024.Idx → EReal)
      = truncf (F := Ideal) .bf16 (extractStridedSlice S1024x1024 ![0, 0] (m ((c : Thread nD τ).loc main_arg5)) slices_S2048x1024_S1024x1024_0_0) bitsLt_bf16_f32 := by
    dsimp only [Gen.V, Gen.hostOps0]; after_results
  rw [e, narrowed_top]

theorem entry_v7 (c : Dev nD) :
    (V m c main_v7 : S1024x1024.Idx → EReal) = botHalf (m ((c : Thread nD τ).loc main_arg5)) := by
  have e : (V m c main_v7 : S1024x1024.Idx → EReal)
      = truncf (F := Ideal) .bf16 (extractStridedSlice S1024x1024 ![1024, 0] (m ((c : Thread nD τ).loc main_arg5)) slices_S2048x1024_S1024x1024_1024_0) bitsLt_bf16_f32 := by
    dsimp only [Gen.V, Gen.hostOps0]; after_results
  rw [e, narrowed_bot]

theorem entry_v17 (c : Dev nD) :
    (V m c main_v17 : S1x1024.Idx → EReal) = asRow (m ((c : Thread nD τ).loc main_arg6)) := by
  have e : (V m c main_v17 : S1x1024.Idx → EReal)
      = shapeCast S1x1024 (m ((c : Thread nD τ).loc main_arg6)) shapeCasts_S1024_S1x1024 := by
    dsimp only [Gen.V, Gen.hostOps0]; after_results; rfl
  rw [e, reshaped_row]

/-! ## The output gate's -/

theorem entry_v9 (c : Dev nD) :
    (V m c main_v9 : S1024x1024.Idx → EReal) = topHalf (m ((c : Thread nD τ).loc main_arg7)) := by
  have e : (V m c main_v9 : S1024x1024.Idx → EReal)
      = truncf (F := Ideal) .bf16 (extractStridedSlice S1024x1024 ![0, 0] (m ((c : Thread nD τ).loc main_arg7)) slices_S2048x1024_S1024x1024_0_0) bitsLt_bf16_f32 := by
    dsimp only [Gen.V, Gen.hostOps0]; after_results
  rw [e, narrowed_top]

theorem entry_v11 (c : Dev nD) :
    (V m c main_v11 : S1024x1024.Idx → EReal) = botHalf (m ((c : Thread nD τ).loc main_arg7)) := by
  have e : (V m c main_v11 : S1024x1024.Idx → EReal)
      = truncf (F := Ideal) .bf16 (extractStridedSlice S1024x1024 ![1024, 0] (m ((c : Thread nD τ).loc main_arg7)) slices_S2048x1024_S1024x1024_1024_0) bitsLt_bf16_f32 := by
    dsimp only [Gen.V, Gen.hostOps0]; after_results
  rw [e, narrowed_bot]

theorem entry_v18 (c : Dev nD) :
    (V m c main_v18 : S1x1024.Idx → EReal) = asRow (m ((c : Thread nD τ).loc main_arg8)) := by
  have e : (V m c main_v18 : S1x1024.Idx → EReal)
      = shapeCast S1x1024 (m ((c : Thread nD τ).loc main_arg8)) shapeCasts_S1024_S1x1024 := by
    dsimp only [Gen.V, Gen.hostOps0]; after_results; rfl
  rw [e, reshaped_row]

/-! ## The candidate's -/

theorem entry_v13 (c : Dev nD) :
    (V m c main_v13 : S1024x1024.Idx → EReal) = topHalf (m ((c : Thread nD τ).loc main_arg9)) := by
  have e : (V m c main_v13 : S1024x1024.Idx → EReal)
      = truncf (F := Ideal) .bf16 (extractStridedSlice S1024x1024 ![0, 0] (m ((c : Thread nD τ).loc main_arg9)) slices_S2048x1024_S1024x1024_0_0) bitsLt_bf16_f32 := by
    dsimp only [Gen.V, Gen.hostOps0]; after_results
  rw [e, narrowed_top]

theorem entry_v15 (c : Dev nD) :
    (V m c main_v15 : S1024x1024.Idx → EReal) = botHalf (m ((c : Thread nD τ).loc main_arg9)) := by
  have e : (V m c main_v15 : S1024x1024.Idx → EReal)
      = truncf (F := Ideal) .bf16 (extractStridedSlice S1024x1024 ![1024, 0] (m ((c : Thread nD τ).loc main_arg9)) slices_S2048x1024_S1024x1024_1024_0) bitsLt_bf16_f32 := by
    dsimp only [Gen.V, Gen.hostOps0]; after_results
  rw [e, narrowed_bot]

theorem entry_v19 (c : Dev nD) :
    (V m c main_v19 : S1x1024.Idx → EReal) = asRow (m ((c : Thread nD τ).loc main_arg10)) := by
  have e : (V m c main_v19 : S1x1024.Idx → EReal)
      = shapeCast S1x1024 (m ((c : Thread nD τ).loc main_arg10)) shapeCasts_S1024_S1x1024 := by
    dsimp only [Gen.V, Gen.hostOps0]; after_results; rfl
  rw [e, reshaped_row]

end Cert.KernelIdeal.Entry

end
-- ==== Proof.CellBlocks.lean ====
/-
  From the blocks the grid points write back to the two result arrays.

  The grid has 32 points; point `t` stages rows `256 t … 256 t + 255` of the inputs `z`, `h`, `c` and writes back the
  same rows of the two results, while every weight and bias window stages its whole array at every point (the index
  maps, decided over the grid: `idx_z` … `idx_bg`). So a row block read at `(p, k)` is the array at
  `(256 t + p, k)` (`rows_z`, `rows_h`, `rows_c`) and a weight or bias block is the array itself (`whole_wiz` …
  `whole_bg`). With the body's stored values read at an entry (`Payload.hidden_at`, `Payload.cellstate_at`) and the
  fact that row `p` of the cell reads row `p` of its inputs only, what point `t` writes back is block `t` of ONE
  function of the arrays (`flushed_hidden`, `flushed_cellstate`); the 32 blocks cover the arrays (`cover_hidden`,
  `cover_cellstate`); so after the run the two result arrays hold the LSTM step of the arguments (`run`).
-/
import proofs.«152854_j9517647528292_1_alg».proof.Proof.Gen.KernelIdeal.Value
import proofs.«152854_j9517647528292_1_alg».proof.Proof.GatePayload
import proofs.«152854_j9517647528292_1_alg».proof.Proof.WindowEntry
import Idealize.ShloMosaic.Lib.Pipeline.Value

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Lstm Cert.KernelIdeal.Payload Cert.KernelIdeal.Entry

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 32 points -/

theorem idx_z : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_h : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_c : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_hid : ∀ t : Fin cfg0.N, win0_15.index t (0 : Fin 2) = t.val ∧ win0_15.index t (1 : Fin 2) = 0 :=
  (by decide +kernel : ∀ t : Fin grid0.N, win0_15.index t (0 : Fin 2) = t.val ∧ win0_15.index t (1 : Fin 2) = 0)
theorem idx_cel : ∀ t : Fin cfg0.N, win0_16.index t (0 : Fin 2) = t.val ∧ win0_16.index t (1 : Fin 2) = 0 :=
  (by decide +kernel : ∀ t : Fin grid0.N, win0_16.index t (0 : Fin 2) = t.val ∧ win0_16.index t (1 : Fin 2) = 0)

theorem idx_wiz : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_wih : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_bi : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_wfz : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_wfh : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_bf : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx_woz : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx_woh : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx_bo : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx_wgz : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem idx_wgh : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
theorem idx_bg : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)

/-! ## Rows of the batch -/

theorem point_lt (t : Fin cfg0.N) : t.val < 32 :=
  lt_of_lt_of_eq t.isLt (show cfg0.N = 32 from N_0)

/-- Row `p` of point `t`'s block is row `256 t + p` of the batch. -/
def row (t : Fin cfg0.N) (p : Fin 256) : Fin 8192 :=
  ⟨256 * t.val + p.val, by have := point_lt t; have := p.isLt; omega⟩

theorem rows_z (c : Dev nD) (t : Fin cfg0.N) (p : Fin 256) (k : Fin 1024) :
    (iblk m c 0 t : S256x1024.Idx → EReal) (ix2 p k) = (V m c main_arg0 : S8192x1024.Idx → EReal) (ix2 (row t p) k) := by
  obtain ⟨e0, e1⟩ := idx_z t
  unfold iblk
  rw [View.read_apply]
  show V m c main_arg0 _ = V m c main_arg0 _
  congr 1
  funext a; apply Fin.ext
  match a with
  | ⟨0, _⟩ => show win0_0.index t (0 : Fin 2) * 256 + 1 * p.val = 256 * t.val + p.val; rw [e0]; omega
  | ⟨1, _⟩ => show win0_0.index t (1 : Fin 2) * 1024 + 1 * k.val = k.val; rw [e1]; omega

theorem rows_h (c : Dev nD) (t : Fin cfg0.N) (p : Fin 256) (k : Fin 1024) :
    (iblk m c 1 t : S256x1024.Idx → EReal) (ix2 p k) = (V m c main_arg1 : S8192x1024.Idx → EReal) (ix2 (row t p) k) := by
  obtain ⟨e0, e1⟩ := idx_h t
  unfold iblk
  rw [View.read_apply]
  show V m c main_arg1 _ = V m c main_arg1 _
  congr 1
  funext a; apply Fin.ext
  match a with
  | ⟨0, _⟩ => show win0_1.index t (0 : Fin 2) * 256 + 1 * p.val = 256 * t.val + p.val; rw [e0]; omega
  | ⟨1, _⟩ => show win0_1.index t (1 : Fin 2) * 1024 + 1 * k.val = k.val; rw [e1]; omega

theorem rows_c (c : Dev nD) (t : Fin cfg0.N) (p : Fin 256) (k : Fin 1024) :
    (iblk m c 2 t : S256x1024.Idx → EReal) (ix2 p k) = (V m c main_arg2 : S8192x1024.Idx → EReal) (ix2 (row t p) k) := by
  obtain ⟨e0, e1⟩ := idx_c t
  unfold iblk
  rw [View.read_apply]
  show V m c main_arg2 _ = V m c main_arg2 _
  congr 1
  funext a; apply Fin.ext
  match a with
  | ⟨0, _⟩ => show win0_2.index t (0 : Fin 2) * 256 + 1 * p.val = 256 * t.val + p.val; rw [e0]; omega
  | ⟨1, _⟩ => show win0_2.index t (1 : Fin 2) * 1024 + 1 * k.val = k.val; rw [e1]; omega

/-! ## The weight and bias windows stage their whole arrays -/

theorem whole_wiz (c : Dev nD) (t : Fin cfg0.N) : (iblk m c 3 t : S1024x1024.Idx → EReal) = V m c main_v1 := by
  obtain ⟨e0, e1⟩ := idx_wiz t
  funext y
  unfold iblk
  rw [View.read_apply]
  show V m c main_v1 _ = V m c main_v1 y
  congr 1
  funext a; apply Fin.ext
  match a with
  | ⟨0, _⟩ => show win0_3.index t (0 : Fin 2) * 1024 + 1 * (y 0).val = (y 0).val; rw [e0]; omega
  | ⟨1, _⟩ => show win0_3.index t (1 : Fin 2) * 1024 + 1 * (y 1).val = (y 1).val; rw [e1]; omega

theorem whole_wih (c : Dev nD) (t : Fin cfg0.N) : (iblk m c 4 t : S1024x1024.Idx → EReal) = V m c main_v3 := by
  obtain ⟨e0, e1⟩ := idx_wih t
  funext y
  unfold iblk
  rw [View.read_apply]
  show V m c main_v3 _ = V m c main_v3 y
  congr 1
  funext a; apply Fin.ext
  match a with
  | ⟨0, _⟩ => show win0_4.index t (0 : Fin 2) * 1024 + 1 * (y 0).val = (y 0).val; rw [e0]; omega
  | ⟨1, _⟩ => show win0_4.index t (1 : Fin 2) * 1024 + 1 * (y 1).val = (y 1).val; rw [e1]; omega

theorem whole_bi (c : Dev nD) (t : Fin cfg0.N) : (iblk m c 5 t : S1x1024.Idx → EReal) = V m c main_v16 := by
  obtain ⟨e0, e1⟩ := idx_bi t
  funext y
  unfold iblk
  rw [View.read_apply]
  show V m c main_v16 _ = V m c main_v16 y
  congr 1
  funext a; apply Fin.ext
  match a with
  | ⟨0, _⟩ => show win0_5.index t (0 : Fin 2) * 1 + 1 * (y 0).val = (y 0).val; rw [e0]; omega
  | ⟨1, _⟩ => show win0_5.index t (1 : Fin 2) * 1024 + 1 * (y 1).val = (y 1).val; rw [e1]; omega

theorem whole_wfz (c : Dev nD) (t : Fin cfg0.N) : (iblk m c 6 t : S1024x1024.Idx → EReal) = V m c main_v5 := by
  obtain ⟨e0, e1⟩ := idx_wfz t
  funext y
  unfold iblk
  rw [View.read_apply]
  show V m c main_v5 _ = V m c main_v5 y
  congr 1
  funext a; apply Fin.ext
  match a with
  | ⟨0, _⟩ => show win0_6.index t (0 : Fin 2) * 1024 + 1 * (y 0).val = (y 0).val; rw [e0]; omega
  | ⟨1, _⟩ => show win0_6.index t (1 : Fin 2) * 1024 + 1 * (y 1).val = (y 1).val; rw [e1]; omega

theorem whole_wfh (c : Dev nD) (t : Fin cfg0.N) : (iblk m c 7 t : S1024x1024.Idx → EReal) = V m c main_v7 := by
  obtain ⟨e0, e1⟩ := idx_wfh t
  funext y
  unfold iblk
  rw [View.read_apply]
  show V m c main_v7 _ = V m c main_v7 y
  congr 1
  funext a; apply Fin.ext
  match a with
  | ⟨0, _⟩ => show win0_7.index t (0 : Fin 2) * 1024 + 1 * (y 0).val = (y 0).val; rw [e0]; omega
  | ⟨1, _⟩ => show win0_7.index t (1 : Fin 2) * 1024 + 1 * (y 1).val = (y 1).val; rw [e1]; omega

theorem whole_bf (c : Dev nD) (t : Fin cfg0.N) : (iblk m c 8 t : S1x1024.Idx → EReal) = V m c main_v17 := by
  obtain ⟨e0, e1⟩ := idx_bf t
  funext y
  unfold iblk
  rw [View.read_apply]
  show V m c main_v17 _ = V m c main_v17 y
  congr 1
  funext a; apply Fin.ext
  match a with
  | ⟨0, _⟩ => show win0_8.index t (0 : Fin 2) * 1 + 1 * (y 0).val = (y 0).val; rw [e0]; omega
  | ⟨1, _⟩ => show win0_8.index t (1 : Fin 2) * 1024 + 1 * (y 1).val = (y 1).val; rw [e1]; omega

theorem whole_woz (c : Dev nD) (t : Fin cfg0.N) : (iblk m c 9 t : S1024x1024.Idx → EReal) = V m c main_v9 := by
  obtain ⟨e0, e1⟩ := idx_woz t
  funext y
  unfold iblk
  rw [View.read_apply]
  show V m c main_v9 _ = V m c main_v9 y
  congr 1
  funext a; apply Fin.ext
  match a with
  | ⟨0, _⟩ => show win0_9.index t (0 : Fin 2) * 1024 + 1 * (y 0).val = (y 0).val; rw [e0]; omega
  | ⟨1, _⟩ => show win0_9.index t (1 : Fin 2) * 1024 + 1 * (y 1).val = (y 1).val; rw [e1]; omega

theorem whole_woh (c : Dev nD) (t : Fin cfg0.N) : (iblk m c 10 t : S1024x1024.Idx → EReal) = V m c main_v11 := by
  obtain ⟨e0, e1⟩ := idx_woh t
  funext y
  unfold iblk
  rw [View.read_apply]
  show V m c main_v11 _ = V m c main_v11 y
  congr 1
  funext a; apply Fin.ext
  match a with
  | ⟨0, _⟩ => show win0_10.index t (0 : Fin 2) * 1024 + 1 * (y 0).val = (y 0).val; rw [e0]; omega
  | ⟨1, _⟩ => show win0_10.index t (1 : Fin 2) * 1024 + 1 * (y 1).val = (y 1).val; rw [e1]; omega

theorem whole_bo (c : Dev nD) (t : Fin cfg0.N) : (iblk m c 11 t : S1x1024.Idx → EReal) = V m c main_v18 := by
  obtain ⟨e0, e1⟩ := idx_bo t
  funext y
  unfold iblk
  rw [View.read_apply]
  show V m c main_v18 _ = V m c main_v18 y
  congr 1
  funext a; apply Fin.ext
  match a with
  | ⟨0, _⟩ => show win0_11.index t (0 : Fin 2) * 1 + 1 * (y 0).val = (y 0).val; rw [e0]; omega
  | ⟨1, _⟩ => show win0_11.index t (1 : Fin 2) * 1024 + 1 * (y 1).val = (y 1).val; rw [e1]; omega

theorem whole_wgz (c : Dev nD) (t : Fin cfg0.N) : (iblk m c 12 t : S1024x1024.Idx → EReal) = V m c main_v13 := by
  obtain ⟨e0, e1⟩ := idx_wgz t
  funext y
  unfold iblk
  rw [View.read_apply]
  show V m c main_v13 _ = V m c main_v13 y
  congr 1
  funext a; apply Fin.ext
  match a with
  | ⟨0, _⟩ => show win0_12.index t (0 : Fin 2) * 1024 + 1 * (y 0).val = (y 0).val; rw [e0]; omega
  | ⟨1, _⟩ => show win0_12.index t (1 : Fin 2) * 1024 + 1 * (y 1).val = (y 1).val; rw [e1]; omega

theorem whole_wgh (c : Dev nD) (t : Fin cfg0.N) : (iblk m c 13 t : S1024x1024.Idx → EReal) = V m c main_v15 := by
  obtain ⟨e0, e1⟩ := idx_wgh t
  funext y
  unfold iblk
  rw [View.read_apply]
  show V m c main_v15 _ = V m c main_v15 y
  congr 1
  funext a; apply Fin.ext
  match a with
  | ⟨0, _⟩ => show win0_13.index t (0 : Fin 2) * 1024 + 1 * (y 0).val = (y 0).val; rw [e0]; omega
  | ⟨1, _⟩ => show win0_13.index t (1 : Fin 2) * 1024 + 1 * (y 1).val = (y 1).val; rw [e1]; omega

theorem whole_bg (c : Dev nD) (t : Fin cfg0.N) : (iblk m c 14 t : S1x1024.Idx → EReal) = V m c main_v19 := by
  obtain ⟨e0, e1⟩ := idx_bg t
  funext y
  unfold iblk
  rw [View.read_apply]
  show V m c main_v19 _ = V m c main_v19 y
  congr 1
  funext a; apply Fin.ext
  match a with
  | ⟨0, _⟩ => show win0_14.index t (0 : Fin 2) * 1 + 1 * (y 0).val = (y 0).val; rw [e0]; omega
  | ⟨1, _⟩ => show win0_14.index t (1 : Fin 2) * 1024 + 1 * (y 1).val = (y 1).val; rw [e1]; omega

/-! ## What each point writes back -/

/-- The hidden-state array the run leaves, from the arrays the region finds. -/
def hidArr (c : Dev nD) : S8192x1024.Idx → EReal := fun i =>
  cellH (R := 8192) (V m c main_arg0) (V m c main_arg1) (V m c main_arg2) (V m c main_v1) (V m c main_v3) (V m c main_v16)
    (V m c main_v5) (V m c main_v7) (V m c main_v17) (V m c main_v9) (V m c main_v11) (V m c main_v18)
    (V m c main_v13) (V m c main_v15) (V m c main_v19) (i 0) (i 1)

/-- The cell-state array the run leaves, from the arrays the region finds. -/
def celArr (c : Dev nD) : S8192x1024.Idx → EReal := fun i =>
  cellC (R := 8192) (V m c main_arg0) (V m c main_arg1) (V m c main_arg2) (V m c main_v1) (V m c main_v3) (V m c main_v16)
    (V m c main_v5) (V m c main_v7) (V m c main_v17) (V m c main_v13) (V m c main_v15) (V m c main_v19) (i 0) (i 1)

/-- Point `t` writes back rows `256 t … 256 t + 255` of the hidden-state array. -/
theorem flushed_hidden (c : Dev nD) (t : Fin cfg0.N) :
    (dats m 0 c).flushed 15 t = ((cfg0.win 15).blk t).view.read (Elt Ideal) (hidArr m c) := by
  rw [flushed15]
  unfold out0_15
  rw [View.canon_unit_zero hz]
  simp only [View.ld_unit_zero (S := S256x1024) hz, View.ld_unit_zero (S := S1024x1024) hz, View.ld_unit_zero (S := S1x1024) hz]
  obtain ⟨e0, e1⟩ := idx_hid t
  funext j
  obtain ⟨p, q, rfl⟩ : ∃ (p : Fin 256) (q : Fin 1024), j = ix2 p q := ⟨j 0, j 1, eq_ix2 (n0 := 256) (n1 := 1024) j⟩
  show k0_pay2 (F := Ideal) (k0_pay3 (iblk m c 0 t)) (k0_pay4 (iblk m c 1 t)) (iblk m c 2 t)
        (k0_pay5 (iblk m c 0 t) (iblk m c 1 t) (iblk m c 3 t) (iblk m c 4 t) (iblk m c 5 t))
        (k0_pay6 (iblk m c 0 t) (iblk m c 1 t) (iblk m c 6 t) (iblk m c 7 t) (iblk m c 8 t))
        (k0_pay7 (iblk m c 0 t) (iblk m c 9 t)) (iblk m c 10 t) (iblk m c 11 t) (iblk m c 12 t) (iblk m c 13 t) (iblk m c 14 t) (ix2 p q)
      = hidArr m c (((cfg0.win 15).blk t).view.emb (ix2 p q))
  have hemb : ((cfg0.win 15).blk t).view.emb (ix2 p q) = ix2 (row t p) q := by
    funext a; apply Fin.ext
    match a with
    | ⟨0, _⟩ => show win0_15.index t (0 : Fin 2) * 256 + 1 * p.val = 256 * t.val + p.val; rw [e0]; omega
    | ⟨1, _⟩ => show win0_15.index t (1 : Fin 2) * 1024 + 1 * q.val = q.val; rw [e1]; omega
  rw [hemb]
  refine (hidden_at (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) p q).trans ?_
  rw [whole_wiz m c t, whole_wih m c t, whole_bi m c t, whole_wfz m c t, whole_wfh m c t, whole_bf m c t,
    whole_woz m c t, whole_woh m c t, whole_bo m c t, whole_wgz m c t, whole_wgh m c t, whole_bg m c t]
  exact cellH_rows _ _ _ _ _ _ _ _ _ _ _ _ _ _ _ _ _ _ p (row t p) q (rows_z m c t p) (rows_h m c t p) (rows_c m c t p q)

/-- Point `t` writes back rows `256 t … 256 t + 255` of the cell-state array. -/
theorem flushed_cellstate (c : Dev nD) (t : Fin cfg0.N) :
    (dats m 0 c).flushed 16 t = ((cfg0.win 16).blk t).view.read (Elt Ideal) (celArr m c) := by
  rw [flushed16]
  unfold out0_16
  rw [View.canon_unit_zero hz]
  simp only [View.ld_unit_zero (S := S256x1024) hz, View.ld_unit_zero (S := S1024x1024) hz, View.ld_unit_zero (S := S1x1024) hz]
  obtain ⟨e0, e1⟩ := idx_cel t
  funext j
  obtain ⟨p, q, rfl⟩ : ∃ (p : Fin 256) (q : Fin 1024), j = ix2 p q := ⟨j 0, j 1, eq_ix2 (n0 := 256) (n1 := 1024) j⟩
  show k0_pay1 (F := Ideal) (k0_pay3 (iblk m c 0 t)) (k0_pay4 (iblk m c 1 t)) (iblk m c 2 t)
        (k0_pay5 (iblk m c 0 t) (iblk m c 1 t) (iblk m c 3 t) (iblk m c 4 t) (iblk m c 5 t))
        (k0_pay6 (iblk m c 0 t) (iblk m c 1 t) (iblk m c 6 t) (iblk m c 7 t) (iblk m c 8 t))
        (iblk m c 12 t) (iblk m c 13 t) (iblk m c 14 t) (ix2 p q)
      = celArr m c (((cfg0.win 16).blk t).view.emb (ix2 p q))
  have hemb : ((cfg0.win 16).blk t).view.emb (ix2 p q) = ix2 (row t p) q := by
    funext a; apply Fin.ext
    match a with
    | ⟨0, _⟩ => show win0_16.index t (0 : Fin 2) * 256 + 1 * p.val = 256 * t.val + p.val; rw [e0]; omega
    | ⟨1, _⟩ => show win0_16.index t (1 : Fin 2) * 1024 + 1 * q.val = q.val; rw [e1]; omega
  rw [hemb]
  refine (cellstate_at (iblk m c 0 t) (iblk m c 1 t) (iblk m c 2 t) (iblk m c 3 t) (iblk m c 4 t) (iblk m c 5 t) (iblk m c 6 t) (iblk m c 7 t) (iblk m c 8 t)
    (iblk m c 12 t) (iblk m c 13 t) (iblk m c 14 t) p q).trans ?_
  rw [whole_wiz m c t, whole_wih m c t, whole_bi m c t, whole_wfz m c t, whole_wfh m c t, whole_bf m c t,
    whole_wgz m c t, whole_wgh m c t, whole_bg m c t]
  exact cellC_rows _ _ _ _ _ _ _ _ _ _ _ _ _ _ _ p (row t p) q (rows_z m c t p) (rows_h m c t p) (rows_c m c t p q)

/-! ## The 32 blocks cover the arrays -/

/-- An index of the hidden-state array is in point `t`'s block iff each coordinate is in the block's range. -/
theorem mem_blk_hidden (t : Fin cfg0.N) (i : S8192x1024.Idx) :
    i ∈ ((cfg0.win 15).blk t).view.set ↔ ∀ a : Fin 2, win0_15.index t a * S256x1024.size a ≤ (i a).val ∧ (i a).val < win0_15.index t a * S256x1024.size a + S256x1024.size a := by
  show i ∈ ((View.whole main_v20_0).slice (win0_15.rect t)).set ↔ _
  rw [View.set_slice_whole, Rect.mem_set_unit]
  exact Iff.rfl

theorem mem_blk_cellstate (t : Fin cfg0.N) (i : S8192x1024.Idx) :
    i ∈ ((cfg0.win 16).blk t).view.set ↔ ∀ a : Fin 2, win0_16.index t a * S256x1024.size a ≤ (i a).val ∧ (i a).val < win0_16.index t a * S256x1024.size a + S256x1024.size a := by
  show i ∈ ((View.whole main_v20_1).slice (win0_16.rect t)).set ↔ _
  rw [View.set_slice_whole, Rect.mem_set_unit]
  exact Iff.rfl

/-- The point whose block holds row `r`: `r / 256`. -/
def pointOf (i : S8192x1024.Idx) : Fin cfg0.N :=
  ⟨(i 0).val / 256, by
    have h : (i 0).val < 8192 := (i 0).isLt
    rw [show cfg0.N = 32 from N_0]; omega⟩

theorem cover_hidden (i : S8192x1024.Idx) :
    ∃ t : Fin cfg0.N, (cfg0.win 15).flush t = true ∧ i ∈ ((cfg0.win 15).blk t).view.set := by
  have hi0 : (i 0).val < 8192 := (i 0).isLt
  have hi1 : (i 1).val < 1024 := (i 1).isLt
  obtain ⟨e0, e1⟩ := idx_hid (pointOf i)
  have ht : (pointOf i).val = (i 0).val / 256 := rfl
  refine ⟨pointOf i, flush0_15 (pointOf i), ?_⟩
  rw [mem_blk_hidden]
  intro a
  match a with
  | ⟨0, _⟩ => show win0_15.index (pointOf i) (0 : Fin 2) * 256 ≤ (i 0).val ∧ (i 0).val < win0_15.index (pointOf i) (0 : Fin 2) * 256 + 256; rw [e0, ht]; omega
  | ⟨1, _⟩ => show win0_15.index (pointOf i) (1 : Fin 2) * 1024 ≤ (i 1).val ∧ (i 1).val < win0_15.index (pointOf i) (1 : Fin 2) * 1024 + 1024; rw [e1]; omega

theorem cover_cellstate (i : S8192x1024.Idx) :
    ∃ t : Fin cfg0.N, (cfg0.win 16).flush t = true ∧ i ∈ ((cfg0.win 16).blk t).view.set := by
  have hi0 : (i 0).val < 8192 := (i 0).isLt
  have hi1 : (i 1).val < 1024 := (i 1).isLt
  obtain ⟨e0, e1⟩ := idx_cel (pointOf i)
  have ht : (pointOf i).val = (i 0).val / 256 := rfl
  refine ⟨pointOf i, flush0_16 (pointOf i), ?_⟩
  rw [mem_blk_cellstate]
  intro a
  match a with
  | ⟨0, _⟩ => show win0_16.index (pointOf i) (0 : Fin 2) * 256 ≤ (i 0).val ∧ (i 0).val < win0_16.index (pointOf i) (0 : Fin 2) * 256 + 256; rw [e0, ht]; omega
  | ⟨1, _⟩ => show win0_16.index (pointOf i) (1 : Fin 2) * 1024 ≤ (i 1).val ∧ (i 1).val < win0_16.index (pointOf i) (1 : Fin 2) * 1024 + 1024; rw [e1]; omega

/-! ## The arrays after the run -/

theorem final_hidden (c : Dev nD) : (dats m 0 c).arrAt 15 cfg0.N = hidArr m c :=
  (dats m 0 c).arrAt_eq_of_cover 15 (hidArr m c) (fun t _ => flushed_hidden m c t) cover_hidden

theorem final_cellstate (c : Dev nD) : (dats m 0 c).arrAt 16 cfg0.N = celArr m c :=
  (dats m 0 c).arrAt_eq_of_cover 16 (celArr m c) (fun t _ => flushed_cellstate m c t) cover_cellstate

/-- The hidden-state array, from the program's arguments: the LSTM step's new hidden state. -/
theorem hidArr_eq (c : Dev nD) :
    hidArr m c = stepH (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10)) := by
  unfold hidArr stepH
  rw [V_main_arg0, V_main_arg1, V_main_arg2, entry_v1, entry_v3, entry_v16, entry_v5, entry_v7, entry_v17,
    entry_v9, entry_v11, entry_v18, entry_v13, entry_v15, entry_v19]

/-- The cell-state array, from the program's arguments: the LSTM step's new cell state. -/
theorem celArr_eq (c : Dev nD) :
    celArr m c = stepC (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg9)) (m ((c : Thread nD τ).loc main_arg10)) := by
  unfold celArr stepC
  rw [V_main_arg0, V_main_arg1, V_main_arg2, entry_v1, entry_v3, entry_v16, entry_v5, entry_v7, entry_v17,
    entry_v13, entry_v15, entry_v19]

/-! ## The run, read -/

/-- Every weakly fair execution of the kernel program terminates with the first result at the step's new hidden state,
    the second at its new cell state, and the arguments unchanged. -/
theorem run : θ_run defs (onTc (τ := τ) (main (F := Ideal))) ⟨m, fun _ => 0, ρ⟩ fun r => ∀ c : Dev nD,
      r.2.mem ((c : Thread nD τ).loc main_v20_0)
        = stepH (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5)) (m ((c : Thread nD τ).loc main_arg6))
            (m ((c : Thread nD τ).loc main_arg7)) (m ((c : Thread nD τ).loc main_arg8)) (m ((c : Thread nD τ).loc main_arg9)) (m ((c : Thread nD τ).loc main_arg10))
      ∧ r.2.mem ((c : Thread nD τ).loc main_v20_1)
        = stepC (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5)) (m ((c : Thread nD τ).loc main_arg6))
            (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c =>
      ⟨(h c).1.trans ((final_hidden m c).trans (hidArr_eq m c)),
       (h c).2.1.trans ((final_cellstate m c).trans (celArr_eq m c)),
       (h c).2.2⟩)
    (run_blocks m ρ)

end Cert.KernelIdeal.Blocks

end
-- ==== Proof.ReferenceCell.lean ====
/-
  The reference's two results are the same LSTM step.

  The reference joins `z` and `h` side by side into one 8192 × 2048 matrix and contracts it with each gate's whole
  2048 × 1024 weight matrix. Column `k < 1024` of the joined matrix is column `k` of `z`, and column `1024 + k` is
  column `k` of `h` (`joined_left`, `joined_right`); a sum over 2048 terms is the sum of its two halves
  (`Lstm.sum_halves`). So the contraction is the sum of `z` against the first 1024 rows of the weights and `h` against
  the last 1024, and with the bias added a gate's pre-activation is `Lstm.preact` (`gate_ref`). The reference writes the
  sigmoid out as `1 / (1 + e^(-x))`, which is the logistic function (`sigmoid_ref`). The four gates' stages are one
  function of `(z, h, W, b)`, so these two lemmas serve all four, and the two results are `Lstm.stepC` and `Lstm.stepH`
  (`cell_ref`, `hidden_ref`).
-/
import proofs.«152854_j9517647528292_1_alg».proof.Proof.Gen.ReferenceIdeal.Read
import proofs.«152854_j9517647528292_1_alg».proof.Proof.CellSpec
import Idealize.ShloMosaic.Lib.Pipeline.Value
import Idealize.ShloMosaic.Lib.ValueIdx
import Idealize.ShloMosaic.Lib.IdealHost

noncomputable section

namespace Cert.ReferenceIdeal.RefCell

open Cert.ReferenceIdeal Cert.ReferenceIdeal.Gen Cert.ReferenceIdeal.Read Idealize.ShloMosaic Idealize.ShloMosaic.ValueIdx Cert.Lstm

/-! ## The joined matrix -/

/-- Column `k < 1024` of `[z | h]` is column `k` of `z`. -/
theorem joined_left (x0 x1 : (⟨S8192x1024, .f32⟩ : BufTy).Contents (Elt Ideal)) (r : Fin 8192) (k : Fin 1024) (hk : k.val < 2048) :
    val_main_v0 (F := Ideal) x0 x1 (ix2 r ⟨k.val, hk⟩) = x0 (ix2 r k) := by
  unfold val_main_v0
  exact concatenate_pair_apply_left 1 x0 x1 concatenates_S8192x1024_S8192x1024_S8192x2048_d1 _ rfl (ix2 r k) (fun b => by
    match b with
    | ⟨0, _⟩ => rfl
    | ⟨1, _⟩ => rfl)

/-- Column `1024 + k` of `[z | h]` is column `k` of `h`. -/
theorem joined_right (x0 x1 : (⟨S8192x1024, .f32⟩ : BufTy).Contents (Elt Ideal)) (r : Fin 8192) (k : Fin 1024) (hk : 1024 + k.val < 2048) :
    val_main_v0 (F := Ideal) x0 x1 (ix2 r ⟨1024 + k.val, hk⟩) = x1 (ix2 r k) := by
  unfold val_main_v0
  exact concatenate_pair_apply_right 1 x0 x1 concatenates_S8192x1024_S8192x1024_S8192x2048_d1 _ rfl rfl (ix2 r k) (fun b hb => by
    match b with
    | ⟨0, _⟩ => rfl
    | ⟨1, _⟩ => exact absurd rfl hb) (Nat.add_comm _ _)

/-! ## One gate -/

/-- A gate's pre-activation in the reference, at `(r, j)`. -/
theorem gate_ref (x0 x1 : (⟨S8192x1024, .f32⟩ : BufTy).Contents (Elt Ideal)) (W : (⟨S2048x1024, .f32⟩ : BufTy).Contents (Elt Ideal)) (b : (⟨S1024, .f32⟩ : BufTy).Contents (Elt Ideal)) (r : Fin 8192) (j : Fin 1024) :
    val_main_v4 (F := Ideal) x0 x1 W b (ix2 r j) = preact x0 x1 (topHalf W) (botHalf W) (asRow b) r j := by
  have hl : ∀ k : Fin 2048, lidx_main_v1 (ix2 r j) k = ix2 r k := fun k => funext fun a => Fin.ext (by
    match a with
    | ⟨0, _⟩ => rfl
    | ⟨1, _⟩ => rfl)
  have hr : ∀ k : Fin 2048, ridx_main_v1 (ix2 r j) k = ix2 k j := fun k => funext fun a => Fin.ext (by
    match a with
    | ⟨0, _⟩ => rfl
    | ⟨1, _⟩ => rfl)
  have hb : idx_main_v2 (idx_main_v3 (ix2 r j)) = ix1 j := funext fun a => Fin.ext (by
    match a with
    | ⟨0, _⟩ => rfl)
  rw [val_main_v4_apply, val_main_v1_apply, val_main_v3_apply, val_main_v2_apply]
  simp only [hl, hr, hb]
  rw [sum_halves]
  simp only [joined_left, joined_right]
  rfl

/-- The reference's sigmoid of a gate, at `(r, j)`: the logistic function of the pre-activation. -/
theorem sigmoid_ref (x0 x1 : (⟨S8192x1024, .f32⟩ : BufTy).Contents (Elt Ideal)) (W : (⟨S2048x1024, .f32⟩ : BufTy).Contents (Elt Ideal)) (b : (⟨S1024, .f32⟩ : BufTy).Contents (Elt Ideal)) (r : Fin 8192) (j : Fin 1024) :
    val_main_v10 (F := Ideal) x0 x1 W b (ix2 r j) = Ideal.logistic (preact x0 x1 (topHalf W) (botHalf W) (asRow b) r j) := by
  rw [val_main_v10_apply, val_main_v9_apply, val_main_cst_0_apply, val_main_v8_apply, val_main_v7_apply, val_main_cst_apply,
    val_main_v6_apply, val_main_v5_apply, gate_ref]
  exact logistic_spelled _

/-! ## The two results -/

/-- The reference's new cell state is the step's. -/
theorem cell_ref (x0 x1 x2 : (⟨S8192x1024, .f32⟩ : BufTy).Contents (Elt Ideal)) (x3 : (⟨S2048x1024, .f32⟩ : BufTy).Contents (Elt Ideal)) (x4 : (⟨S1024, .f32⟩ : BufTy).Contents (Elt Ideal))
    (x5 : (⟨S2048x1024, .f32⟩ : BufTy).Contents (Elt Ideal)) (x6 : (⟨S1024, .f32⟩ : BufTy).Contents (Elt Ideal)) (x9 : (⟨S2048x1024, .f32⟩ : BufTy).Contents (Elt Ideal)) (x10 : (⟨S1024, .f32⟩ : BufTy).Contents (Elt Ideal)) :
    val_main_v38 (F := Ideal) x0 x1 x2 x3 x4 x5 x6 x9 x10 = stepC x0 x1 x2 x3 x4 x5 x6 x9 x10 := by
  funext i
  obtain ⟨r, j, rfl⟩ : ∃ (r : Fin 8192) (j : Fin 1024), i = ix2 r j := ⟨i 0, i 1, eq_ix2 i⟩
  show val_main_v10 (F := Ideal) x0 x1 x5 x6 (ix2 r j) * x2 (ix2 r j)
      + val_main_v10 (F := Ideal) x0 x1 x3 x4 (ix2 r j) * Ideal.tanh (val_main_v4 (F := Ideal) x0 x1 x9 x10 (ix2 r j)) = _
  rw [sigmoid_ref, sigmoid_ref, gate_ref]
  rfl

/-- The reference's new hidden state is the step's. -/
theorem hidden_ref (x0 x1 x2 : (⟨S8192x1024, .f32⟩ : BufTy).Contents (Elt Ideal)) (x3 : (⟨S2048x1024, .f32⟩ : BufTy).Contents (Elt Ideal)) (x4 : (⟨S1024, .f32⟩ : BufTy).Contents (Elt Ideal))
    (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal))
    (x9 : (⟨S2048x1024, .f32⟩ : BufTy).Contents (Elt Ideal)) (x10 : (⟨S1024, .f32⟩ : BufTy).Contents (Elt Ideal)) :
    val_main_v40 (F := Ideal) x0 x1 x2 x3 x4 x5 x6 x7 x8 x9 x10 = stepH x0 x1 x2 x3 x4 x5 x6 x7 x8 x9 x10 := by
  funext i
  obtain ⟨r, j, rfl⟩ : ∃ (r : Fin 8192) (j : Fin 1024), i = ix2 r j := ⟨i 0, i 1, eq_ix2 i⟩
  show val_main_v10 (F := Ideal) x0 x1 x7 x8 (ix2 r j)
      * Ideal.tanh (val_main_v38 (F := Ideal) x0 x1 x2 x3 x4 x5 x6 x9 x10 (ix2 r j)) = _
  rw [sigmoid_ref, cell_ref]
  rfl

end Cert.ReferenceIdeal.RefCell

end
-- ==== Proof.lean ====
/-
  One step of an LSTM cell: the tiled kernel against the plain reference, as functions on the extended reals.

  Both programs take a batch `z` of inputs, the previous hidden state `h` and cell state `c` (8192 rows of 1024 entries
  each), and for each of the four gates a 2048 × 1024 weight matrix and a bias of 1024 entries. Both return

      c' = σ(a_f) · c + σ(a_i) · tanh(a_g),        h' = σ(a_o) · tanh(c'),

  where a gate's pre-activation is `a = [z | h] · W + b` and σ is the logistic function. The reference joins `z` and `h`
  into one 8192 × 2048 matrix and contracts it with the whole weight matrix. The kernel works on 32 blocks of 256 rows,
  cuts each weight matrix into the 1024 rows that meet `z` and the 1024 rows that meet `h`, narrows the operands of the
  products to bf16, and adds the two half-products. On the extended reals the narrowing is the identity and a sum over
  2048 terms is the sum of its two halves — addition there is commutative and associative, so the precondition that
  the inputs be finite is never opened — and the kernel's logistic operation is the `1 / (1 + e^(-x))` the reference
  spells out. So both programs end with their first result at `Lstm.stepH` and their second at `Lstm.stepC` of the
  arguments (Proof/CellSpec.lean): the kernel by Proof/GatePayload.lean (the body's stored values at an entry),
  Proof/WindowEntry.lean (the arrays the weight and bias windows stage) and Proof/CellBlocks.lean (from the blocks to
  the arrays, and the run); the reference by Proof/ReferenceCell.lean over its run read one operation at a time.
  The kernel's idealization rewrote no operation, so `preserves` has nothing to state.
-/
import proofs.«152854_j9517647528292_1_alg».proof.Defs
import proofs.«152854_j9517647528292_1_alg».proof.Proof.Gen.Kernel
import proofs.«152854_j9517647528292_1_alg».proof.Proof.Gen.Kernel.Skeleton
import proofs.«152854_j9517647528292_1_alg».proof.Proof.Gen.Kernel.Launch
import proofs.«152854_j9517647528292_1_alg».proof.Proof.Gen.Kernel.Points
import proofs.«152854_j9517647528292_1_alg».proof.Proof.Gen.Kernel.Frame
import proofs.«152854_j9517647528292_1_alg».proof.Proof.Gen.KernelIdeal
import proofs.«152854_j9517647528292_1_alg».proof.Proof.Gen.KernelIdeal.Skeleton
import proofs.«152854_j9517647528292_1_alg».proof.Proof.Gen.KernelIdeal.Launch
import proofs.«152854_j9517647528292_1_alg».proof.Proof.Gen.KernelIdeal.Points
import proofs.«152854_j9517647528292_1_alg».proof.Proof.Gen.KernelIdeal.Frame
import proofs.«152854_j9517647528292_1_alg».proof.Proof.Gen.ReferenceIdeal
import proofs.«152854_j9517647528292_1_alg».proof.Proof.Gen.Pre_finite_inputs
import proofs.«152854_j9517647528292_1_alg».proof.Proof.Gen.KernelIdeal.Value
import proofs.«152854_j9517647528292_1_alg».proof.Proof.Gen.ReferenceIdeal.Run
import proofs.«152854_j9517647528292_1_alg».proof.Proof.Gen.ReferenceIdeal.Read
import proofs.«152854_j9517647528292_1_alg».proof.Proof.CellBlocks
import proofs.«152854_j9517647528292_1_alg».proof.Proof.ReferenceCell
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the arguments, both idealized programs end with the step's new hidden state as their
    first result and its new cell state as their second. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10⟩ := hagree c
    rw [(h c).1, Cert.ReferenceIdeal.Read.val_main_v40_eq, Cert.ReferenceIdeal.RefCell.hidden_ref,
      a0, a1, a2, a3, a4, a5, a6, a7, a8, a9, a10]
  · obtain ⟨a0, a1, a2, a3, a4, a5, a6, a7, a8, a9, a10⟩ := hagree c
    rw [(h c).2.1, Cert.ReferenceIdeal.Read.val_main_v38_eq, Cert.ReferenceIdeal.RefCell.cell_ref,
      a0, a1, a2, a3, a4, a5, a6, a9, a10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
